-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S1000x128 : Shape := ⟨2, ![1000, 128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn_part1 {F : FTy → Type} [FloatOps F] (main_v13 : IVec S_ 1) (main_v15 : IVec S1000x128 1) (main_c_5 : IVec S_ 1) : IVec S_ 1 :=
  let main_v16 : IVec S_ 1 := (fun x v => Host.reduce IntOp.andi x v reducesTo_S1000x128_S_d0_1 h_S_) main_v15 main_c_5
  let main_v17 : IVec S_ 1 := andi main_v13 main_v16
  main_v17

def fn {F : FTy → Type} [FloatOps F] (main_arg0 : FVec F S32768x128 .f32) (main_arg1 : FVec F S1000x128 .f32) (main_arg2 : FVec F S1000x128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S1000x128 .f32 := Host.absf main_arg2
  let main_cst_2 : FVec F S_ .f32 := constant S_ .f32 0x7F800000#32
  let main_v10 : FVec F S1000x128 .f32 := broadcastInDim S1000x128 ![] bcast_S_S1000x128 main_cst_2
  let main_v11 : IVec S1000x128 1 := cmpf .olt main_v9 main_v10
  let main_c_3 : IVec S_ 1 := constantI S_ 1 1#1
  let main_v12 : IVec S_ 1 := (fun x v => Host.reduce IntOp.andi x v reducesTo_S1000x128_S_d0_1 h_S_) main_v11 main_c_3
  let main_v13 : IVec S_ 1 := andi main_v8 main_v12
  let main_cst_4 : FVec F S_ .f32 := constant S_ .f32 0x00000000#32
  let main_v14 : FVec F S1000x128 .f32 := broadcastInDim S1000x128 ![] bcast_S_S1000x128 main_cst_4
  let main_v15 : IVec S1000x128 1 := cmpf .ogt main_arg2 main_v14
  let main_c_5 : IVec S_ 1 := constantI S_ 1 1#1
  fn_part1 (F := F) main_v13 main_v15 main_c_5
-- ==== Kernel.lean ====
abbrev S32768x128 : Shape := ⟨2, ![32768, 128]⟩
abbrev S1000x128 : Shape := ⟨2, ![1000, 128]⟩
abbrev S_ : Shape := ⟨0, ![]⟩
abbrev S1000 : Shape := ⟨1, ![1000]⟩
abbrev S128x1000 : Shape := ⟨2, ![128, 1000]⟩
abbrev S1x1000 : Shape := ⟨2, ![1, 1000]⟩
abbrev S32768x1000 : Shape := ⟨2, ![32768, 1000]⟩
abbrev S1024x128 : Shape := ⟨2, ![1024, 128]⟩
abbrev S1024x1000 : Shape := ⟨2, ![1024, 1000]⟩

abbrev nBuf : Space → Nat
  | .hbm => 28
  | .vmem => 7
  | .smem => 0
  | _ => 0

abbrev bufTy : (tb : Table) → Fin (tcTables nBuf tb) → BufTy
  | .hbm, ⟨0, _⟩ => ⟨S32768x128, .f32⟩
  | .hbm, ⟨1, _⟩ => ⟨S1000x128, .f32⟩
  | .hbm, ⟨2, _⟩ => ⟨S1000x128, .f32⟩
  | .hbm, ⟨3, _⟩ => ⟨S1000x128, .f32⟩
  | .hbm, ⟨4, _⟩ => ⟨S_, .f32⟩
  | .hbm, ⟨5, _⟩ => ⟨S1000x128, .f32⟩
  | .hbm, ⟨6, _⟩ => ⟨S1000x128, .f32⟩
  | .hbm, ⟨7, _⟩ => ⟨S1000x128, .f32⟩
  | .hbm, ⟨8, _⟩ => ⟨S1000x128, .f32⟩
  | .hbm, ⟨9, _⟩ => ⟨S1000x128, .f32⟩
  | .hbm, ⟨10, _⟩ => ⟨S_, .f32⟩
  | .hbm, ⟨11, _⟩ => ⟨S1000, .f32⟩
  | .hbm, ⟨12, _⟩ => ⟨S1000x128, .f32⟩
  | .hbm, ⟨13, _⟩ => ⟨S_, .f32⟩
  | .hbm, ⟨14, _⟩ => ⟨S1000x128, .f32⟩
  | .hbm, ⟨15, _⟩ => ⟨S1000x128, .f32⟩
  | .hbm, ⟨16, _⟩ => ⟨S_, .f32⟩
  | .hbm, ⟨17, _⟩ => ⟨S1000, .f32⟩
  | .hbm, ⟨18, _⟩ => ⟨S_, .f32⟩
  | .hbm, ⟨19, _⟩ => ⟨S1000, .f32⟩
  | .hbm, ⟨20, _⟩ => ⟨S1000, .f32⟩
  | .hbm, ⟨21, _⟩ => ⟨S1000, .f32⟩
  | .hbm, ⟨22, _⟩ => ⟨S128x1000, .f32⟩
  | .hbm, ⟨23, _⟩ => ⟨S128x1000, .bf16⟩
  | .hbm, ⟨24, _⟩ => ⟨S128x1000, .f32⟩
  | .hbm, ⟨25, _⟩ => ⟨S128x1000, .bf16⟩
  | .hbm, ⟨26, _⟩ => ⟨S1x1000, .f32⟩
  | .hbm, ⟨27, _⟩ => ⟨S32768x1000, .f32⟩
  | .local _ .vmem, ⟨0, _⟩ => ⟨S1024x128, .f32⟩
  | .local _ .vmem, ⟨1, _⟩ => ⟨S1024x128, .f32⟩
  | .local _ .vmem, ⟨2, _⟩ => ⟨S128x1000, .bf16⟩
  | .local _ .vmem, ⟨3, _⟩ => ⟨S128x1000, .bf16⟩
  | .local _ .vmem, ⟨4, _⟩ => ⟨S1x1000, .f32⟩
  | .local _ .vmem, ⟨5, _⟩ => ⟨S1024x1000, .f32⟩
  | .local _ .vmem, ⟨6, _⟩ => ⟨S1024x1000, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1000x128 : S_.BroadcastsInDim S1000x128 (![] : Fin 0 → Fin S1000x128.rank)
  reducesTo_S1000x128_S1000_d1 : S1000x128.ReducesTo [1] S1000
  h_S_ : 0 < S_.numel
  bcast_S_S1000 : S_.BroadcastsInDim S1000 (![] : Fin 0 → Fin S1000.rank)
  transposes_S1000x128_S128x1000_1_0 : S1000x128.Transposes [1, 0] S128x1000
  bitsLt_bf16_f32 : FTy.bits .bf16 < FTy.bits .f32
  shapeCasts_S1000_S1x1000 : S1000.ShapeCasts S1x1000
  inb_S1024x128_S1024x128_0_0 : ∀ a, (![0, 0] : Fin 2 → Nat) a + S1024x128.size a ≤ S1024x128.size a
  h_S1024x128 : 0 < S1024x128.numel
  inb_S128x1000_S128x1000_0_0 : ∀ a, (![0, 0] : Fin 2 → Nat) a + S128x1000.size a ≤ S128x1000.size a
  h_S128x1000 : 0 < S128x1000.numel
  shapeCasts_S128x1000_S128x1000 : S128x1000.ShapeCasts S128x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  dot_S1024x128_S128x1000_S1024x1000_1_0_0_1_n_n_wf : DotDims.WF S1024x128 S128x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1000.size a ≤ S128x1000.size a
  hwx0_1 : ∀ i : grid0.Coords, EltTy.bits .bf16 = 32 ∨ (Rect.block (s := S128x1000) S128x1000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1000.size a ≤ S128x1000.size a
  hwx0_2 : ∀ i : grid0.Coords, EltTy.bits .bf16 = 32 ∨ (Rect.block (s := S128x1000) S128x1000.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1000.size a ≤ S1x1000.size a
  hwx0_3 : ∀ i : grid0.Coords, EltTy.bits .f32 = 32 ∨ (Rect.block (s := S1x1000) S1x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1000.size a ≤ S32768x1000.size a
  hwx0_4 : ∀ i : grid0.Coords, EltTy.bits .f32 = 32 ∨ (Rect.block (s := S32768x1000) S1024x1000.size (cc0_transform_4 i) (hinb0_4 i)).WholeWords (EltTy.packing .f32)

variable [Facts₀]

def dot_S1024x128_S128x1000_S1024x1000_1_0_0_1_n_n : DotDims S1024x128 S128x1000 S1024x1000 where
  lhsContracting := [1]
  rhsContracting := [0]
  lhsNonContracting := [0]
  rhsNonContracting := [1]
  lhsBatch := []
  rhsBatch := []
  wf := dot_S1024x128_S128x1000_S1024x1000_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1024x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x128 : Shape := ⟨2, ![32768, 128]⟩
abbrev S1000x128 : Shape := ⟨2, ![1000, 128]⟩
abbrev S_ : Shape := ⟨0, ![]⟩
abbrev S32768x1000 : Shape := ⟨2, ![32768, 1000]⟩
abbrev S1000 : Shape := ⟨1, ![1000]⟩
abbrev S1x1000 : Shape := ⟨2, ![1, 1000]⟩

abbrev nBuf : Space → Nat
  | .hbm => 34
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S1000x128, .f32⟩
  | .hbm, ⟨2, _⟩ => ⟨S1000x128, .f32⟩
  | .hbm, ⟨3, _⟩ => ⟨S1000x128, .f32⟩
  | .hbm, ⟨4, _⟩ => ⟨S_, .f32⟩
  | .hbm, ⟨5, _⟩ => ⟨S1000x128, .f32⟩
  | .hbm, ⟨6, _⟩ => ⟨S1000x128, .f32⟩
  | .hbm, ⟨7, _⟩ => ⟨S32768x128, .f32⟩
  | .hbm, ⟨8, _⟩ => ⟨S32768x1000, .f32⟩
  | .hbm, ⟨9, _⟩ => ⟨S1000x128, .f32⟩
  | .hbm, ⟨10, _⟩ => ⟨S32768x1000, .f32⟩
  | .hbm, ⟨11, _⟩ => ⟨S1000x128, .f32⟩
  | .hbm, ⟨12, _⟩ => ⟨S1000x128, .f32⟩
  | .hbm, ⟨13, _⟩ => ⟨S_, .f32⟩
  | .hbm, ⟨14, _⟩ => ⟨S1000, .f32⟩
  | .hbm, ⟨15, _⟩ => ⟨S_, .f32⟩
  | .hbm, ⟨16, _⟩ => ⟨S32768x1000, .f32⟩
  | .hbm, ⟨17, _⟩ => ⟨S32768x1000, .f32⟩
  | .hbm, ⟨18, _⟩ => ⟨S32768x1000, .f32⟩
  | .hbm, ⟨19, _⟩ => ⟨S1x1000, .f32⟩
  | .hbm, ⟨20, _⟩ => ⟨S32768x1000, .f32⟩
  | .hbm, ⟨21, _⟩ => ⟨S32768x1000, .f32⟩
  | .hbm, ⟨22, _⟩ => ⟨S_, .f32⟩
  | .hbm, ⟨23, _⟩ => ⟨S32768x1000, .f32⟩
  | .hbm, ⟨24, _⟩ => ⟨S32768x1000, .f32⟩
  | .hbm, ⟨25, _⟩ => ⟨S1000x128, .f32⟩
  | .hbm, ⟨26, _⟩ => ⟨S_, .f32⟩
  | .hbm, ⟨27, _⟩ => ⟨S1000x128, .f32⟩
  | .hbm, ⟨28, _⟩ => ⟨S1000x128, .f32⟩
  | .hbm, ⟨29, _⟩ => ⟨S_, .f32⟩
  | .hbm, ⟨30, _⟩ => ⟨S1000, .f32⟩
  | .hbm, ⟨31, _⟩ => ⟨S1x1000, .f32⟩
  | .hbm, ⟨32, _⟩ => ⟨S32768x1000, .f32⟩
  | .hbm, ⟨33, _⟩ => ⟨S32768x1000, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S_S1000x128 : S_.BroadcastsInDim S1000x128 (![] : Fin 0 → Fin S1000x128.rank)
  reducesTo_S1000x128_S1000_d1 : S1000x128.ReducesTo [1] S1000
  h_S_ : 0 < S_.numel
  bcast_S_S32768x1000 : S_.BroadcastsInDim S32768x1000 (![] : Fin 0 → Fin S32768x1000.rank)
  bcast_S1000_S1x1000_1 : S1000.BroadcastsInDim S1x1000 (![1] : Fin 1 → Fin S1x1000.rank)
  bcast_S1x1000_S32768x1000_0_1 : S1x1000.BroadcastsInDim S32768x1000 (![0, 1] : Fin 2 → Fin S32768x1000.rank)
  dot_S32768x128_S1000x128_S32768x1000_1_1_0_0_n_n_wf : DotDims.WF S32768x128 S1000x128 S32768x1000 [1] [1] [0] [0] [] []

variable [Facts₀]

def dot_S32768x128_S1000x128_S32768x1000_1_1_0_0_n_n : DotDims S32768x128 S1000x128 S32768x1000 where
  lhsContracting := [1]
  rhsContracting := [1]
  lhsNonContracting := [0]
  rhsNonContracting := [0]
  lhsBatch := []
  rhsBatch := []
  wf := dot_S32768x128_S1000x128_S32768x1000_1_1_0_0_n_n_wf

class Facts : Prop extends Facts₀ where

variable [Facts]
-- ==== Proof.GaussSpec.lean ====
/-
  The log-density of a row `x_b` under a diagonal Gaussian of class `c` (mean `mu_c`, scale `s_c`), summed over the
  128 coordinates, written over the extended reals in the two arrangements the two programs compute.

  With `iv = 1 / s²` (coordinate by coordinate) and the four row sums
    `Q  = ∑_k x_bk² · iv_ck`,   `X = ∑_k x_bk · (mu_ck · iv_ck)`,   `M = 0 + ∑_k mu_ck² · iv_ck`,
    `L  = 0 + ∑_k (½·log 2π + log s_ck)`,
  the GROUPED form is `((-½)·Q + X) + ((-½)·M - L)` — the square's cross term kept whole and everything that depends on the
  class alone gathered into one bias — and the EXPANDED form is `(-½)·((Q - 2·X) + M) - L`, the square multiplied out.
  Over the reals the two are the same number by distributivity. Over the extended reals distributivity fails at the
  infinities, so the law is proved for REAL `Q`, `X`, `M` (and any `L`, finite or not: it is only ever added at the end,
  and addition of extended reals is associative). `Q`, `X`, `M` are real as soon as every entry of `x`, `mu`, `s` is real
  and no scale is zero: then `s²` is a nonzero real, its reciprocal a real, and finite sums of products of reals are real.
-/
import Idealize.ShloMosaic.PureOps.Ideal
import Idealize.ShloMosaic.PureOps.Ideal.Laws
import Idealize.ShloMosaic.Lib.ValueIdx

noncomputable section

open scoped BigOperators

namespace Cert.GaussLogProb

open Idealize.ShloMosaic Idealize.ShloMosaic.ValueIdx

/-! ## The three float constants the programs spell, as the reals they denote -/

/-- `-0.5`. -/
abbrev negHalf : EReal := Ideal.ofBits .f32 0xBF000000#32
/-- `2.0`. -/
abbrev two : EReal := Ideal.ofBits .f32 0x40000000#32
/-- `1.0`. -/
abbrev one : EReal := Ideal.ofBits .f32 0x3F800000#32
/-- `½·log 2π` rounded to f32; its value plays no part. -/
abbrev halfLog2Pi : EReal := Ideal.ofBits .f32 0x3F6B3F8E#32
/-- `+0.0`, the initial value of the host's sums. -/
abbrev zero : EReal := Ideal.ofBits .f32 0x00000000#32

theorem negHalf_eq : negHalf = ((-(1 / 2) : ℝ) : EReal) := by
  simp [negHalf, Ideal.ofBits, Ideal.ieee, -EReal.coe_mul]; norm_num

theorem two_eq : two = ((2 : ℝ) : EReal) := by
  simp [two, Ideal.ofBits, Ideal.ieee, -EReal.coe_mul]; norm_num

theorem one_eq : one = ((1 : ℝ) : EReal) := by
  simp [one, Ideal.ofBits, Ideal.ieee, -EReal.coe_mul]; norm_num

theorem zero_eq : zero = 0 := Ideal.ofBits_zero_f32

/-! ## Real-valued extended reals -/

/-- An extended real that is a real number. -/
def IsReal (a : EReal) : Prop := ∃ r : ℝ, a = (r : EReal)

theorem IsReal.mul {a b : EReal} (ha : IsReal a) (hb : IsReal b) : IsReal (a * b) := by
  obtain ⟨r, rfl⟩ := ha; obtain ⟨t, rfl⟩ := hb
  exact ⟨r * t, (EReal.coe_mul r t).symm⟩

theorem IsReal.add {a b : EReal} (ha : IsReal a) (hb : IsReal b) : IsReal (a + b) := by
  obtain ⟨r, rfl⟩ := ha; obtain ⟨t, rfl⟩ := hb
  exact ⟨r + t, (EReal.coe_add r t).symm⟩

theorem isReal_zero : IsReal 0 := ⟨0, EReal.coe_zero.symm⟩

/-- A finite sum of reals is a real. -/
theorem IsReal.sum {ι : Type*} (S : Finset ι) (f : ι → EReal) (h : ∀ k ∈ S, IsReal (f k)) : IsReal (∑ k ∈ S, f k) := by
  classical
  induction S using Finset.induction_on with
  | empty => rw [Finset.sum_empty]; exact isReal_zero
  | insert a S ha ih =>
    rw [Finset.sum_insert ha]
    exact (h a (Finset.mem_insert_self a S)).add (ih fun k hk => h k (Finset.mem_insert_of_mem hk))

/-- The reciprocal of the square of a nonzero real, as the programs compute it (`1.0 / (s·s)`), is a real. -/
theorem isReal_invSq {a : EReal} (ha : IsReal a) (h0 : a ≠ 0) : IsReal (Ideal.div one (a * a)) := by
  obtain ⟨r, rfl⟩ := ha
  have hr : r ≠ 0 := fun e => h0 (by rw [e]; rfl)
  rw [← EReal.coe_mul, Ideal.div_coe (mul_ne_zero hr hr), one_eq]
  exact ⟨1 * (1 / (r * r)), (EReal.coe_mul _ _).symm⟩

/-! ## The law -/

/-- Grouped and expanded square agree when the three quadratic sums are real, whatever the log-normaliser is. -/
theorem grouped_eq_expanded {Q X M : EReal} (hQ : IsReal Q) (hX : IsReal X) (hM : IsReal M) (L : EReal) :
    (negHalf * Q + X) + (negHalf * M - L) = negHalf * ((Q - two * X) + M) - L := by
  obtain ⟨q, rfl⟩ := hQ; obtain ⟨x, rfl⟩ := hX; obtain ⟨mm, rfl⟩ := hM
  rw [negHalf_eq, two_eq, sub_eq_add_neg (((-(1 / 2) : ℝ) : EReal) * (mm : EReal)) L, ← add_assoc,
    sub_eq_add_neg _ L]
  refine congrArg (· + -L) ?_
  rw [← EReal.coe_mul, ← EReal.coe_mul, ← EReal.coe_mul, ← EReal.coe_sub, ← EReal.coe_add, ← EReal.coe_add,
    ← EReal.coe_add, ← EReal.coe_mul]
  exact congrArg _ (by ring)

/-! ## The two arrangements over the argument arrays

`x` is the [32768, 128] array of rows, `mu` and `s` the [1000, 128] arrays of class means and scales; a score index is
(row `b`, class `c`). -/

abbrev Rows : Shape := ⟨2, ![32768, 128]⟩
abbrev Params : Shape := ⟨2, ![1000, 128]⟩
abbrev Scores : Shape := ⟨2, ![32768, 1000]⟩

section Arrays
variable (x : Rows.Idx → EReal) (mu s : Params.Idx → EReal)

/-- `1 / s_ck²`. -/
def invVar (c : Fin 1000) (k : Fin 128) : EReal := Ideal.div one (s (ix2 c k) * s (ix2 c k))
/-- `Q_bc = ∑_k x_bk² / s_ck²`. -/
def quadX (b : Fin 32768) (c : Fin 1000) : EReal := ∑ k : Fin 128, (x (ix2 b k) * x (ix2 b k)) * invVar s c k
/-- `X_bc = ∑_k x_bk · mu_ck / s_ck²`. -/
def crossXMu (b : Fin 32768) (c : Fin 1000) : EReal := ∑ k : Fin 128, x (ix2 b k) * (mu (ix2 c k) * invVar s c k)
/-- `M_c = 0 + ∑_k mu_ck² / s_ck²`. -/
def quadMu (c : Fin 1000) : EReal := zero + ∑ k : Fin 128, (mu (ix2 c k) * mu (ix2 c k)) * invVar s c k
/-- `L_c = 0 + ∑_k (½·log 2π + log s_ck)`. -/
def logNorm (c : Fin 1000) : EReal := zero + ∑ k : Fin 128, (halfLog2Pi + Ideal.log (s (ix2 c k)))

/-- The grouped arrangement: `((-½)·Q + X) + ((-½)·M - L)`. -/
def grouped : Scores.Idx → EReal := fun i =>
  (negHalf * quadX x s (i 0) (i 1) + crossXMu x mu s (i 0) (i 1)) + (negHalf * quadMu mu s (i 1) - logNorm s (i 1))
/-- The expanded arrangement: `(-½)·((Q - 2·X) + M) - L`. -/
def expanded : Scores.Idx → EReal := fun i =>
  negHalf * ((quadX x s (i 0) (i 1) - two * crossXMu x mu s (i 0) (i 1)) + quadMu mu s (i 1)) - logNorm s (i 1)

variable {x mu s}

theorem isReal_invVar (hs : ∀ i, IsReal (s i)) (hs0 : ∀ i, s i ≠ 0) (c : Fin 1000) (k : Fin 128) : IsReal (invVar s c k) :=
  isReal_invSq (hs _) (hs0 _)

/-- On real arrays with no zero scale the two arrangements are one array. -/
theorem grouped_eq_expanded_of_real (hx : ∀ i, IsReal (x i)) (hmu : ∀ i, IsReal (mu i)) (hs : ∀ i, IsReal (s i))
    (hs0 : ∀ i, s i ≠ 0) : grouped x mu s = expanded x mu s := by
  funext i
  refine grouped_eq_expanded ?_ ?_ ?_ _
  · exact IsReal.sum _ _ fun k _ => ((hx _).mul (hx _)).mul (isReal_invVar hs hs0 _ k)
  · exact IsReal.sum _ _ fun k _ => (hx _).mul ((hmu _).mul (isReal_invVar hs hs0 _ k))
  · unfold quadMu
    rw [zero_eq]
    exact isReal_zero.add (IsReal.sum _ _ fun k _ => ((hmu _).mul (hmu _)).mul (isReal_invVar hs hs0 _ k))

end Arrays

end Cert.GaussLogProb

end
-- ==== Proof.InputDomain.lean ====
/-
  What the precondition says of the three argument arrays. It is the conjunction of four `jnp.all`s: `|x| < +∞`,
  `|mu| < +∞`, `|s| < +∞` entry by entry, and `s > 0` entry by entry. On the extended reals `|a| < +∞` says `a` is a
  real number (`|±∞| = +∞`), so under the precondition every entry of the three arrays is a real and every scale is positive.
-/
import proofs.«171289_j51642686767616_1_alg».proof.Pre_finite_inputs
import proofs.«171289_j51642686767616_1_alg».proof.Proof.GaussSpec
import Idealize.ShloMosaic.Lib.ReduceAll
import Idealize.ShloMosaic.Lib.ValueIdx
import Idealize.ShloMosaic.Lib.Pipeline.Value
import Idealize.ShloMosaic.PureOps.Ideal.Laws

noncomputable section

namespace Cert.GaussLogProb.Domain

open Idealize.ShloMosaic Idealize.ShloMosaic.ValueIdx Cert.Pre_finite_inputs Cert.GaussLogProb

variable [Cert.Pre_finite_inputs.Facts]
open Cert.Pre_finite_inputs.Facts

instance : Subsingleton S_.Idx := ⟨fun a b => funext fun d => d.elim0⟩

theorem ofBits_inf : Ideal.ofBits .f32 0x7F800000#32 = ⊤ := by simp [Ideal.ofBits, Ideal.ieee]

theorem cmp_olt_eq_one {a b : EReal} : Ideal.cmp .olt a b = 1#1 ↔ a < b := by
  unfold Ideal.cmp
  by_cases h : a < b <;> simp [h]

theorem cmp_ogt_eq_one {a b : EReal} : Ideal.cmp .ogt a b = 1#1 ↔ b < a := by
  unfold Ideal.cmp
  by_cases h : b < a <;> simp [h]

/-- An extended real whose absolute value is below `+∞` is a real. -/
theorem isReal_of_abs_lt_top (a : EReal) (h : max a (-a) < ⊤) : IsReal a := by
  induction a using EReal.rec with
  | bot => exact absurd h (by simp)
  | top => exact absurd h (by simp)
  | coe r => exact ⟨r, rfl⟩

theorem domain_of_pre (x : FVec Ideal S32768x128 .f32) (mu s : FVec Ideal S1000x128 .f32)
    (h : fn (F := Ideal) x mu s = fun _ => 1#1) :
    (∀ i, IsReal (x i)) ∧ (∀ i, IsReal (mu i)) ∧ (∀ i, IsReal (s i)) ∧ (∀ i, 0 < s i) := by
  have h0 := congrFun h ix0
  dsimp only [fn, fn_part1] at h0
  obtain ⟨h13, h16⟩ := IntOp.andi_eq_one.1 h0
  obtain ⟨h8, h12⟩ := IntOp.andi_eq_one.1 h13
  obtain ⟨h3, h7⟩ := IntOp.andi_eq_one.1 h8
  refine ⟨fun i => ?_, fun i => ?_, fun i => ?_, fun i => ?_⟩
  · have e := Host.reduce_andi_all _ _ _ _ _ h3 i
    have e' : Ideal.cmp .olt (max (x i) (-(x i))) (broadcastInDim S32768x128 ![] bcast_S_S32768x128 (constant (F := Ideal) S_ .f32 0x7F800000#32) i) = 1#1 := e
    rw [broadcastInDim_apply _ bcast_S_S32768x128 _ i ix0 (fun a => a.elim0)] at e'
    exact isReal_of_abs_lt_top _ (ofBits_inf ▸ cmp_olt_eq_one.1 e')
  · have e := Host.reduce_andi_all _ _ _ _ _ h7 i
    have e' : Ideal.cmp .olt (max (mu i) (-(mu i))) (broadcastInDim S1000x128 ![] bcast_S_S1000x128 (constant (F := Ideal) S_ .f32 0x7F800000#32) i) = 1#1 := e
    rw [broadcastInDim_apply _ bcast_S_S1000x128 _ i ix0 (fun a => a.elim0)] at e'
    exact isReal_of_abs_lt_top _ (ofBits_inf ▸ cmp_olt_eq_one.1 e')
  · have e := Host.reduce_andi_all _ _ _ _ _ h12 i
    have e' : Ideal.cmp .olt (max (s i) (-(s i))) (broadcastInDim S1000x128 ![] bcast_S_S1000x128 (constant (F := Ideal) S_ .f32 0x7F800000#32) i) = 1#1 := e
    rw [broadcastInDim_apply _ bcast_S_S1000x128 _ i ix0 (fun a => a.elim0)] at e'
    exact isReal_of_abs_lt_top _ (ofBits_inf ▸ cmp_olt_eq_one.1 e')
  · have e := Host.reduce_andi_all _ _ _ _ _ h16 i
    have e' : Ideal.cmp .ogt (s i) (broadcastInDim S1000x128 ![] bcast_S_S1000x128 (constant (F := Ideal) S_ .f32 0x00000000#32) i) = 1#1 := e
    rw [broadcastInDim_apply _ bcast_S_S1000x128 _ i ix0 (fun a => a.elim0)] at e'
    have e'' := cmp_ogt_eq_one.1 e'
    rwa [show constant (F := Ideal) S_ .f32 0x00000000#32 ix0 = 0 from Ideal.ofBits_zero_f32] at e''

end Cert.GaussLogProb.Domain

end
-- ==== Proof.RefScores.lean ====
/-
  The reference's result array, read at a score index (row `b`, class `c`), is the EXPANDED arrangement of the
  Gaussian log-density: its two `dot_general`s are the row sums `Q_bc` and `X_bc` over the 128 coordinates, its two
  `jnp.sum`s the class sums `M_c` and `L_c` (each `0 +` the sum), broadcast along the rows, and the scalar constants
  `-0.5`, `2.0`, `1.0`, `½·log 2π` broadcast to every index.
-/
import proofs.«171289_j51642686767616_1_alg».proof.Proof.Gen.ReferenceIdeal.Read
import proofs.«171289_j51642686767616_1_alg».proof.Proof.GaussSpec

noncomputable section

namespace Cert.ReferenceIdeal.RefValue

open Cert.ReferenceIdeal Cert.ReferenceIdeal.Gen Cert.ReferenceIdeal.Read
open Idealize.ShloMosaic Idealize.ShloMosaic.ValueIdx Cert.GaussLogProb

theorem ref_eq_expanded (x : FVec Ideal S32768x128 .f32) (mu s : FVec Ideal S1000x128 .f32) :
    val_main_v24 (F := Ideal) x mu s = expanded x mu s := by
  funext i
  have eL4 : ∀ k, lidx_main_v4 i k = ix2 (i 0) k := fun k => funext fun a => Fin.ext (by match a with | ⟨0, _⟩ => rfl | ⟨1, _⟩ => rfl)
  have eR4 : ∀ k, ridx_main_v4 i k = ix2 (i 1) k := fun k => funext fun a => Fin.ext (by match a with | ⟨0, _⟩ => rfl | ⟨1, _⟩ => rfl)
  have eL6 : ∀ k, lidx_main_v6 i k = ix2 (i 0) k := fun k => funext fun a => Fin.ext (by match a with | ⟨0, _⟩ => rfl | ⟨1, _⟩ => rfl)
  have eR6 : ∀ k, ridx_main_v6 i k = ix2 (i 1) k := fun k => funext fun a => Fin.ext (by match a with | ⟨0, _⟩ => rfl | ⟨1, _⟩ => rfl)
  have e9 : ∀ k, idx_main_v9 (idx_main_v13 (idx_main_v14 i)) k = ix2 (i 1) k := fun k => funext fun a => Fin.ext (by match a with | ⟨0, _⟩ => rfl | ⟨1, _⟩ => rfl)
  have e21 : ∀ k, idx_main_v21 (idx_main_v22 (idx_main_v23 i)) k = ix2 (i 1) k := fun k => funext fun a => Fin.ext (by match a with | ⟨0, _⟩ => rfl | ⟨1, _⟩ => rfl)
  rw [val_main_v24_apply, val_main_v17_apply, val_main_v16_apply, val_main_cst_2_apply, val_main_v15_apply,
    val_main_v12_apply, val_main_v4_apply, val_main_v11_apply, val_main_v10_apply, val_main_cst_1_apply,
    val_main_v6_apply, val_main_v14_apply, val_main_v13_apply, val_main_v9_apply, val_main_v23_apply,
    val_main_v22_apply, val_main_v21_apply]
  simp only [val_main_v3_apply, val_main_v2_apply, val_main_v1_apply, val_main_cst_apply, val_main_v0_apply,
    val_main_v5_apply, val_main_v8_apply, val_main_v7_apply, val_main_cst_0_apply, val_main_v20_apply,
    val_main_v19_apply, val_main_v18_apply, val_main_cst_3_apply, val_main_cst_4_apply,
    eL4, eR4, eL6, eR6, e9, e21,
    Ideal.ofBits_def, Ideal.mulf_def, Ideal.subf_def, Ideal.addf_def, Ideal.hostDivf_def, Ideal.hostUnary_log_def]
  rfl

end Cert.ReferenceIdeal.RefValue

end
-- ==== Proof.KernelTables.lean ====
/-
  What the host computes before the kernel is launched, read at an index: the three class tables the kernel's
  windows 1, 2 and 3 stage whole. With `mu` and `s` the [1000, 128] arrays of means and scales,
    * the [128, 1000] table `ivT` is the transpose of `iv = 1 / s²`:            `ivT[k, c] = 1 / s_ck²`,
    * the [128, 1000] table `muT` is the transpose of `mu · iv`:                `muT[k, c] = mu_ck / s_ck²`,
    * the [1, 1000] row `bias` is `(-½)·M - L` reshaped:  `bias[0, c] = (-½)·(0 + ∑_k mu_ck²/s_ck²) - (0 + ∑_k (½ log 2π + log s_ck))`.
  (The two tables are converted to bf16 on the way, which is the identity on extended reals.)
-/
import proofs.«171289_j51642686767616_1_alg».proof.Proof.Gen.KernelIdeal.Frame
import proofs.«171289_j51642686767616_1_alg».proof.Proof.GaussSpec
import Idealize.ShloMosaic.Lib.Pipeline.Value
import Idealize.ShloMosaic.Lib.StableHlo.Run
import Idealize.ShloMosaic.PureOps.Ideal.Laws

noncomputable section

namespace Cert.KernelIdeal.Tables

open Cert.KernelIdeal Cert.KernelIdeal.Gen Idealize.ShloMosaic Idealize.ShloMosaic.TcCoe Idealize.SL.Sem
open Idealize.ShloMosaic.StableHlo Idealize.ShloMosaic.ValueIdx Cert.GaussLogProb

variable (m : (ℓ : Loc nD τ sig) → Buf (Elt Ideal) ℓ)

/-- The rows, the class means and the class scales as launched. -/
abbrev xArr (c : Dev nD) : S32768x128.Idx → EReal := m ((c : Thread nD τ).loc main_arg0)
abbrev muArr (c : Dev nD) : S1000x128.Idx → EReal := m ((c : Thread nD τ).loc main_arg1)
abbrev sArr (c : Dev nD) : S1000x128.Idx → EReal := m ((c : Thread nD τ).loc main_arg2)

/-- `iv = 1 / s²` as the host spells it. -/
abbrev ivTerm (c : Dev nD) : S1000x128.Idx → EReal :=
  Host.divf (F := Ideal) (broadcastInDim S1000x128 ![] bcast_S_S1000x128 (constant (F := Ideal) S_ .f32 0x3F800000#32)) (mulf (sArr m c) (sArr m c))

theorem ivTerm_apply (c : Dev nD) (q : Fin 1000) (k : Fin 128) : ivTerm m c (ix2 q k) = invVar (sArr m c) q k := by
  show Ideal.div (broadcastInDim S1000x128 ![] bcast_S_S1000x128 (constant (F := Ideal) S_ .f32 0x3F800000#32) (ix2 q k)) _ = _
  rw [broadcastInDim_apply _ bcast_S_S1000x128 _ (ix2 q k) ix0 (fun a => a.elim0)]
  rfl

theorem ivT_eq (c : Dev nD) : V m c main_v15
    = (truncf (F := Ideal) .bf16 (transpose S128x1000 [1, 0] (ivTerm m c) transposes_S1000x128_S128x1000_1_0) bitsLt_bf16_f32 : FVec Ideal S128x1000 .bf16) := by
  dsimp only [Gen.V, Gen.hostOps0]
  after_results

theorem ivT_apply (c : Dev nD) (k : Fin 128) (q : Fin 1000) :
    (V m c main_v15 : S128x1000.Idx → EReal) (ix2 k q) = invVar (sArr m c) q k := by
  rw [ivT_eq]
  show transpose S128x1000 [1, 0] (ivTerm m c) transposes_S1000x128_S128x1000_1_0 (ix2 k q) = _
  rw [transpose_apply [1, 0] (ivTerm m c) transposes_S1000x128_S128x1000_1_0 (ix2 k q) (ix2 q k)
    (fun b => by match b with | ⟨0, _⟩ => rfl | ⟨1, _⟩ => rfl)]
  exact ivTerm_apply m c q k

theorem muT_eq (c : Dev nD) : V m c main_v17
    = (truncf (F := Ideal) .bf16 (transpose S128x1000 [1, 0] (mulf (F := Ideal) (muArr m c) (ivTerm m c)) transposes_S1000x128_S128x1000_1_0) bitsLt_bf16_f32 : FVec Ideal S128x1000 .bf16) := by
  dsimp only [Gen.V, Gen.hostOps0]
  after_results

theorem muT_apply (c : Dev nD) (k : Fin 128) (q : Fin 1000) :
    (V m c main_v17 : S128x1000.Idx → EReal) (ix2 k q) = muArr m c (ix2 q k) * invVar (sArr m c) q k := by
  rw [muT_eq]
  show transpose S128x1000 [1, 0] (mulf (F := Ideal) (φ := .f32) (muArr m c) (ivTerm m c)) transposes_S1000x128_S128x1000_1_0 (ix2 k q) = _
  rw [transpose_apply [1, 0] (mulf (F := Ideal) (φ := .f32) (muArr m c) (ivTerm m c)) transposes_S1000x128_S128x1000_1_0 (ix2 k q) (ix2 q k)
    (fun b => by match b with | ⟨0, _⟩ => rfl | ⟨1, _⟩ => rfl)]
  show muArr m c (ix2 q k) * ivTerm m c (ix2 q k) = _
  rw [ivTerm_apply]

/-- A host sum of a [1000, 128] array along its coordinates, from `+0.0`, at class `q`: `0 + ∑_k y_qk`. -/
theorem rowSum_at (y : FVec Ideal S1000x128 .f32) (q : Fin 1000) :
    Host.reduceAdd (F := Ideal) y (constant (F := Ideal) S_ .f32 0x00000000#32) reducesTo_S1000x128_S1000_d1 h_S_ (ix1 q)
      = zero + ∑ k : Fin 128, y (ix2 q k) := by
  simp only [Host.reduceAdd, Ideal.hostReduceAdd_def]
  rw [Ideal.hostReduceAdd_single reducesTo_S1000x128_S1000_d1 (by decide)]
  refine congrArg₂ (· + ·) rfl (Finset.sum_congr rfl fun k _ => ?_)
  exact congrArg y (funext fun a => Fin.ext (by match a with | ⟨0, _⟩ => rfl | ⟨1, _⟩ => rfl))

/-- `(-½)·M - L` as the host spells it, a [1000] vector. -/
abbrev biasTerm (c : Dev nD) : S1000.Idx → EReal :=
  subf (F := Ideal) (φ := .f32)
    (mulf (F := Ideal) (φ := .f32) (broadcastInDim S1000 ![] bcast_S_S1000 (constant (F := Ideal) S_ .f32 0xBF000000#32))
      (Host.reduceAdd (F := Ideal) (mulf (F := Ideal) (φ := .f32) (mulf (F := Ideal) (φ := .f32) (muArr m c) (muArr m c)) (ivTerm m c))
        (constant (F := Ideal) S_ .f32 0x00000000#32) reducesTo_S1000x128_S1000_d1 h_S_))
    (Host.reduceAdd (F := Ideal)
      (addf (F := Ideal) (φ := .f32) (broadcastInDim S1000x128 ![] bcast_S_S1000x128 (constant (F := Ideal) S_ .f32 0x3F6B3F8E#32)) (Host.log (F := Ideal) (φ := .f32) (sArr m c)))
      (constant (F := Ideal) S_ .f32 0x00000000#32) reducesTo_S1000x128_S1000_d1 h_S_)

theorem bias_eq (c : Dev nD) : V m c main_v18
    = (shapeCast S1x1000 (biasTerm m c) shapeCasts_S1000_S1x1000 : FVec Ideal S1x1000 .f32) := by
  dsimp only [Gen.V, Gen.hostOps0]
  after_results
  rfl

theorem bias_apply (c : Dev nD) (q : Fin 1000) :
    (V m c main_v18 : S1x1000.Idx → EReal) (ix2 0 q) = negHalf * quadMu (muArr m c) (sArr m c) q - logNorm (sArr m c) q := by
  rw [bias_eq]
  rw [shapeCast_apply (biasTerm m c) shapeCasts_S1000_S1x1000 (ix2 0 q) (ix1 q)
    (by rw [Shape.rowMajor_val_one, Shape.rowMajor_val_two]; show q.val = 0 * 1000 + q.val; omega)]
  show broadcastInDim S1000 ![] bcast_S_S1000 (constant (F := Ideal) S_ .f32 0xBF000000#32) (ix1 q)
      * Host.reduceAdd (F := Ideal) (mulf (F := Ideal) (φ := .f32) (mulf (F := Ideal) (φ := .f32) (muArr m c) (muArr m c)) (ivTerm m c))
          (constant (F := Ideal) S_ .f32 0x00000000#32) reducesTo_S1000x128_S1000_d1 h_S_ (ix1 q)
      - Host.reduceAdd (F := Ideal)
          (addf (F := Ideal) (φ := .f32) (broadcastInDim S1000x128 ![] bcast_S_S1000x128 (constant (F := Ideal) S_ .f32 0x3F6B3F8E#32)) (Host.log (F := Ideal) (φ := .f32) (sArr m c)))
          (constant (F := Ideal) S_ .f32 0x00000000#32) reducesTo_S1000x128_S1000_d1 h_S_ (ix1 q) = _
  rw [rowSum_at, rowSum_at, broadcastInDim_apply _ bcast_S_S1000 _ (ix1 q) ix0 (fun a => a.elim0)]
  refine congrArg₂ (· - ·) (congrArg₂ (· * ·) rfl (congrArg₂ (· + ·) rfl (Finset.sum_congr rfl fun k _ => ?_)))
    (congrArg₂ (· + ·) rfl (Finset.sum_congr rfl fun k _ => ?_))
  · show muArr m c (ix2 q k) * muArr m c (ix2 q k) * ivTerm m c (ix2 q k) = _
    rw [ivTerm_apply]
  · show broadcastInDim S1000x128 ![] bcast_S_S1000x128 (constant (F := Ideal) S_ .f32 0x3F6B3F8E#32) (ix2 q k) + Ideal.log (sArr m c (ix2 q k)) = _
    rw [broadcastInDim_apply _ bcast_S_S1000x128 _ (ix2 q k) ix0 (fun a => a.elim0)]
    rfl

end Cert.KernelIdeal.Tables

end
-- ==== Proof.KernelPayload.lean ====
/-
  The kernel body's arithmetic at one entry of its [1024, 1000] output block. From a [1024, 128] block `x` of rows, the two
  [128, 1000] class tables `ivT`, `muT` and the [1, 1000] bias row, the body stores
      `((-½) · (x² ⋅ ivT) + x ⋅ muT) + bias`
  — two matrix products over the 128 coordinates into a zero accumulator, a splat scalar, and the bias row broadcast down the
  rows. At entry (p, q) that is `((-½) · ∑_k x_pk² · ivT_kq + ∑_k x_pk · muT_kq) + bias_0q`: a matrix product into the zero
  splat is the plain sum of products over the one contracted axis, re-indexed by that axis's coordinate; the conversions of
  the products' operands to bf16 are the identity on extended reals.
-/
import proofs.«171289_j51642686767616_1_alg».proof.Proof.Gen.KernelIdeal.Skeleton
import proofs.«171289_j51642686767616_1_alg».proof.Proof.GaussSpec
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.GaussLogProb

/-! ## The product's operand indices: rows × (contracted) and (contracted) × columns -/

theorem lhs_dot_0 (i : S1024x1000.Idx) (q : dot_S1024x128_S128x1000_S1024x1000_1_0_0_1_n_n.contr.Idx) :
    (dot_S1024x128_S128x1000_S1024x1000_1_0_0_1_n_n.lhsIdx i q 0).val = (i 0).val := by
  unfold DotDims.lhsIdx
  rw [dif_neg (show ¬(0 : Fin S1024x128.rank) ∈ dot_S1024x128_S128x1000_S1024x1000_1_0_0_1_n_n.lhsBatch by decide), dif_pos (show (0 : Fin S1024x128.rank) ∈ dot_S1024x128_S128x1000_S1024x1000_1_0_0_1_n_n.lhsNonContracting by decide)]
  rfl
theorem lhs_dot_1 (i : S1024x1000.Idx) (q : dot_S1024x128_S128x1000_S1024x1000_1_0_0_1_n_n.contr.Idx) :
    (dot_S1024x128_S128x1000_S1024x1000_1_0_0_1_n_n.lhsIdx i q 1).val = (q ⟨0, by decide⟩).val :=
  dot_S1024x128_S128x1000_S1024x1000_1_0_0_1_n_n.lhsIdx_val_of_single rfl i q
theorem rhs_dot_0 (i : S1024x1000.Idx) (q : dot_S1024x128_S128x1000_S1024x1000_1_0_0_1_n_n.contr.Idx) :
    (dot_S1024x128_S128x1000_S1024x1000_1_0_0_1_n_n.rhsIdx i q 0).val = (q ⟨0, by decide⟩).val :=
  dot_S1024x128_S128x1000_S1024x1000_1_0_0_1_n_n.rhsIdx_val_of_single rfl i q
theorem rhs_dot_1 (i : S1024x1000.Idx) (q : dot_S1024x128_S128x1000_S1024x1000_1_0_0_1_n_n.contr.Idx) :
    (dot_S1024x128_S128x1000_S1024x1000_1_0_0_1_n_n.rhsIdx i q 1).val = (i 1).val := by
  unfold DotDims.rhsIdx
  rw [dif_neg (show ¬(1 : Fin S128x1000.rank) ∈ dot_S1024x128_S128x1000_S1024x1000_1_0_0_1_n_n.rhsBatch by decide), dif_pos (show (1 : Fin S128x1000.rank) ∈ dot_S1024x128_S128x1000_S1024x1000_1_0_0_1_n_n.rhsNonContracting by decide)]
  rfl

/-- A [1024, 128] × [128, 1000] product into the zero splat, at entry (p, q): the sum over the 128 coordinates. -/
theorem matmul_zero_at {φ₁ φ₂ : FTy} (A : FVec Ideal S1024x128 φ₁) (B : FVec Ideal S128x1000 φ₂) (p : Fin 1024) (q : Fin 1000) :
    matmul (F := Ideal) dot_S1024x128_S128x1000_S1024x1000_1_0_0_1_n_n none A B (constant (F := Ideal) S1024x1000 .f32 0x00000000#32) (ix2 p q)
      = ∑ k : Fin 128, A (ix2 p k) * B (ix2 k q) := by
  simp only [matmul]
  rw [Ideal.matmul_constant_zero_apply, ← Equiv.sum_comp (ValueIdx.contrEquiv1 dot_S1024x128_S128x1000_S1024x1000_1_0_0_1_n_n 128 rfl rfl).symm]
  refine Finset.sum_congr rfl fun k _ => ?_
  have hk := ValueIdx.contrEquiv1_symm_val dot_S1024x128_S128x1000_S1024x1000_1_0_0_1_n_n 128 rfl rfl k
  have el : dot_S1024x128_S128x1000_S1024x1000_1_0_0_1_n_n.lhsIdx (ix2 p q) ((ValueIdx.contrEquiv1 dot_S1024x128_S128x1000_S1024x1000_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1024x128_S128x1000_S1024x1000_1_0_0_1_n_n.rhsIdx (ix2 p q) ((ValueIdx.contrEquiv1 dot_S1024x128_S128x1000_S1024x1000_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias row broadcast down the 1024 rows, at entry (p, q), is the row's entry q. -/
theorem bias_bcast_at (r : FVec Ideal S1x1000 .f32) (p : Fin 1024) (q : Fin 1000) :
    broadcastTo S1024x1000 r broadcasts_S1x1000_S1024x1000 (ix2 p q) = r (ix2 0 q) :=
  broadcastTo_apply r broadcasts_S1x1000_S1024x1000 (ix2 p q) (ix2 0 q)
    (fun a => by match a with | ⟨0, _⟩ => rfl | ⟨1, _⟩ => rfl)

/-- The stored value at entry (p, q). -/
theorem pay_apply (x0 : Vec Ideal S1024x128 .f32) (x1 x2 : Vec Ideal S128x1000 .bf16) (x3 : Vec Ideal S1x1000 .f32)
    (p : Fin 1024) (q : Fin 1000) :
    k0_pay1 (F := Ideal) x0 x1 x2 x3 (ix2 p q)
      = (negHalf * (∑ k : Fin 128, (x0 (ix2 p k) * x0 (ix2 p k)) * x1 (ix2 k q)) + ∑ k : Fin 128, x0 (ix2 p k) * x2 (ix2 k q))
        + x3 (ix2 0 q) := by
  unfold k0_pay1
  simp only [shapeCast_self]
  show (negHalf * matmul (F := Ideal) dot_S1024x128_S128x1000_S1024x1000_1_0_0_1_n_n none (truncf (F := Ideal) .bf16 (mulf (F := Ideal) x0 x0) bitsLt_bf16_f32) x1 (constant (F := Ideal) S1024x1000 .f32 0x00000000#32) (ix2 p q)
      + matmul (F := Ideal) dot_S1024x128_S128x1000_S1024x1000_1_0_0_1_n_n none (truncf (F := Ideal) .bf16 x0 bitsLt_bf16_f32) x2 (constant (F := Ideal) S1024x1000 .f32 0x00000000#32) (ix2 p q))
      + broadcastTo S1024x1000 x3 broadcasts_S1x1000_S1024x1000 (ix2 p q) = _
  rw [matmul_zero_at, matmul_zero_at, bias_bcast_at]
  rfl

end Cert.KernelIdeal.Payload

end
-- ==== Proof.KernelScores.lean ====
/-
  The kernel's result array is the GROUPED arrangement of the Gaussian log-density. The grid has 32 points; point `t` stages
  rows `1024·t … 1024·t + 1023` of `x` and the three class tables whole, and writes back the [1024, 1000] block of scores of
  those rows. Entry (p, q) of that block is the body's arithmetic (`((-½)·∑_k x²·ivT + ∑_k x·muT) + bias`) of row
  `1024·t + p` and class `q`, which with the tables read back (`ivT_kq = 1/s_qk²`, `muT_kq = mu_qk/s_qk²`,
  `bias_0q = (-½)·M_q - L_q`) is the grouped form at (1024·t + p, q). The 32 blocks tile the [32768, 1000] array, row
  `r` lying in block `r / 1024`, so after the run the whole array is the grouped form.
-/
import proofs.«171289_j51642686767616_1_alg».proof.Proof.Gen.KernelIdeal.Value
import proofs.«171289_j51642686767616_1_alg».proof.Proof.KernelTables
import proofs.«171289_j51642686767616_1_alg».proof.Proof.KernelPayload

noncomputable section

namespace Cert.KernelIdeal.Scores

open Cert.KernelIdeal Cert.KernelIdeal.Gen Idealize.ShloMosaic Idealize.ShloMosaic.TcCoe Idealize.SL.Sem
open Idealize.ShloMosaic.Pipeline (Dat)
open Idealize.ShloMosaic.ValueIdx Cert.GaussLogProb Cert.KernelIdeal.Tables Cert.KernelIdeal.Payload

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 grid points: the rows' window and the scores' window sit at block row `t`, the three
    class tables at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One entry of one block, over plain arrays: if the staged rows are rows `1024·tv + p` of `X`, the staged tables are
    the class tables of `MU`, `S`, and `i` is the score index (1024·tv + p, q), the body's stored value at (p, q) is the
    grouped form at `i`. -/
theorem block_entry (x0 : Vec Ideal S1024x128 .f32) (x1 x2 : Vec Ideal S128x1000 .bf16) (x3 : Vec Ideal S1x1000 .f32)
    (X : S32768x128.Idx → EReal) (MU S : S1000x128.Idx → EReal) (p : Fin 1024) (q : Fin 1000) (i : S32768x1000.Idx)
    (h0 : ∀ k : Fin 128, x0 (ix2 p k) = X (ix2 (i 0) k))
    (h1 : ∀ (k : Fin 128) (q : Fin 1000), x1 (ix2 k q) = invVar S q k)
    (h2 : ∀ (k : Fin 128) (q : Fin 1000), x2 (ix2 k q) = MU (ix2 q k) * invVar S q k)
    (h3 : ∀ q : Fin 1000, x3 (ix2 0 q) = negHalf * quadMu MU S q - logNorm S q)
    (hi1 : i 1 = q) :
    k0_pay1 (F := Ideal) x0 x1 x2 x3 (ix2 p q) = grouped X MU S i := by
  rw [pay_apply]
  unfold grouped quadX crossXMu
  simp only [h0, h1, h2, h3, hi1]

/-- WHAT POINT `t` WRITES BACK is block `t` of the grouped form of the argument arrays as launched. -/
theorem flushed_eq (c : Dev nD) (t : Fin cfg0.N) :
    (dats m 0 c).flushed 4 t
      = ((cfg0.win 4).blk t).view.read (Elt Ideal) (grouped (xArr m c) (muArr m c) (sArr m c)) := by
  rw [Value.flushed4]
  unfold out0_4
  rw [View.canon_unit_zero hz]
  simp only [View.ld_unit_zero (S := S1024x128) hz, View.ld_unit_zero (S := S128x1000) hz, View.ld_unit_zero (S := S1x1000) hz]
  obtain ⟨e00, e01, e10, e11, e20, e21, e30, e31, e40, e41⟩ := idx_facts t
  funext j
  show k0_pay1 (F := Ideal) (iblk m c 0 t) (iblk m c 1 t) (iblk m c 2 t) (iblk m c 3 t) j
      = grouped (xArr m c) (muArr m c) (sArr m c) (((cfg0.win 4).blk t).view.emb j)
  refine (congrArg (k0_pay1 (F := Ideal) (iblk m c 0 t) (iblk m c 1 t) (iblk m c 2 t) (iblk m c 3 t))
    (eq_ix2 (n0 := 1024) (n1 := 1000) j)).trans ?_
  refine block_entry (iblk m c 0 t) (iblk m c 1 t) (iblk m c 2 t) (iblk m c 3 t) (xArr m c) (muArr m c) (sArr m c)
    (j 0) (j 1) (((cfg0.win 4).blk t).view.emb j) ?_ ?_ ?_ ?_ ?_
  · intro k
    show V m c main_arg0 (((cfg0.win 0).blk t).view.emb (ix2 (j 0) k)) = xArr m c (ix2 ((((cfg0.win 4).blk t).view.emb j) 0) k)
    rw [V_main_arg0]
    refine congrArg _ (funext fun a => Fin.ext ?_)
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 128 + 1 * k.val = k.val; omega
  · intro k q
    show V m c main_v15 (((cfg0.win 1).blk t).view.emb (ix2 k q)) = _
    rw [show ((cfg0.win 1).blk t).view.emb (ix2 k q) = ix2 k q from funext fun a => Fin.ext (by
      match a with
      | ⟨0, _⟩ => show win0_1.index t (0 : Fin 2) * 128 + 1 * k.val = k.val; omega
      | ⟨1, _⟩ => show win0_1.index t (1 : Fin 2) * 1000 + 1 * q.val = q.val; omega)]
    exact ivT_apply m c k q
  · intro k q
    show V m c main_v17 (((cfg0.win 2).blk t).view.emb (ix2 k q)) = _
    rw [show ((cfg0.win 2).blk t).view.emb (ix2 k q) = ix2 k q from funext fun a => Fin.ext (by
      match a with
      | ⟨0, _⟩ => show win0_2.index t (0 : Fin 2) * 128 + 1 * k.val = k.val; omega
      | ⟨1, _⟩ => show win0_2.index t (1 : Fin 2) * 1000 + 1 * q.val = q.val; omega)]
    exact muT_apply m c k q
  · intro q
    show V m c main_v18 (((cfg0.win 3).blk t).view.emb (ix2 0 q)) = _
    rw [show ((cfg0.win 3).blk t).view.emb (ix2 0 q) = ix2 0 q from funext fun a => Fin.ext (by
      match a with
      | ⟨0, _⟩ => show win0_3.index t (0 : Fin 2) * 1 + 1 * 0 = 0; omega
      | ⟨1, _⟩ => show win0_3.index t (1 : Fin 2) * 1000 + 1 * q.val = q.val; omega)]
    exact bias_apply m c q
  · apply Fin.ext
    show win0_4.index t (1 : Fin 2) * 1000 + 1 * (j 1).val = (j 1).val
    omega

/-- An index of the scores array is in point `t`'s block iff each coordinate is in the block's range on its axis. -/
theorem mem_blk (t : Fin cfg0.N) (i : S32768x1000.Idx) :
    i ∈ ((cfg0.win 4).blk t).view.set ↔ ∀ a : Fin 2, win0_4.index t a * S1024x1000.size a ≤ (i a).val ∧ (i a).val < win0_4.index t a * S1024x1000.size a + S1024x1000.size a := by
  show i ∈ ((View.whole main_v19).slice (win0_4.rect t)).set ↔ _
  rw [View.set_slice_whole, Rect.mem_set_unit]
  exact Iff.rfl

/-- Every score index lies in the block of the point its row falls to: row `r` in block `r / 1024`. -/
theorem cover (i : S32768x1000.Idx) :
    ∃ t : Fin cfg0.N, (cfg0.win 4).flush t = true ∧ i ∈ ((cfg0.win 4).blk t).view.set := by
  have hi0 : (i 0).val < 32768 := (i 0).isLt
  have hi1 : (i 1).val < 1000 := (i 1).isLt
  have hN : cfg0.N = 32 := N_0
  refine ⟨⟨(i 0).val / 1024, by rw [hN]; omega⟩, flush0_4 _, ?_⟩
  obtain ⟨-, -, -, -, -, -, -, -, e40, e41⟩ := idx_facts ⟨(i 0).val / 1024, by rw [hN]; omega⟩
  rw [mem_blk]
  intro a
  match a with
  | ⟨0, _⟩ =>
    show win0_4.index _ (0 : Fin 2) * 1024 ≤ (i 0).val ∧ (i 0).val < win0_4.index _ (0 : Fin 2) * 1024 + 1024
    rw [e40]; show (i 0).val / 1024 * 1024 ≤ (i 0).val ∧ (i 0).val < (i 0).val / 1024 * 1024 + 1024; omega
  | ⟨1, _⟩ =>
    show win0_4.index _ (1 : Fin 2) * 1000 ≤ (i 1).val ∧ (i 1).val < win0_4.index _ (1 : Fin 2) * 1000 + 1000
    rw [e41]; omega

/-- THE ARRAY after the run is the grouped form of the argument arrays. -/
theorem final (c : Dev nD) :
    (dats m 0 c).arrAt 4 cfg0.N = grouped (xArr m c) (muArr m c) (sArr m c) :=
  (dats m 0 c).arrAt_eq_of_cover 4 (grouped (xArr m c) (muArr m c) (sArr m c)) (fun t _ => flushed_eq m c t) cover

/-- The kernel's run: the result array ends at the grouped form of the arguments, the arguments unchanged. -/
theorem run : θ_run defs (onTc (τ := τ) (main (F := Ideal))) ⟨m, fun _ => 0, ρ⟩ fun r => ∀ c : Dev nD,
      r.2.mem ((c : Thread nD τ).loc main_v19) = grouped (xArr m c) (muArr m c) (sArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Scores

end
-- ==== Proof.lean ====
/-
  The certificate's claim: a tiled Gaussian log-density kernel against its jnp reference, over the extended reals.

  For rows `x` [32768, 128] and class means `mu` and scales `s` [1000, 128] both programs compute the log-density of
  row `b` under the diagonal Gaussian of class `c`. The reference multiplies the square out,
  `(-½)·((Q - 2·X) + M) - L`; the kernel keeps the cross term whole and folds what depends on the class alone into a bias
  row on the host, `((-½)·Q + X) + ((-½)·M - L)` (`Q`, `X` the two row-by-class sums over the 128 coordinates, `M`, `L` the two
  class sums: Proof/GaussSpec.lean). The two arrangements agree when `Q`, `X`, `M` are real numbers, which the
  precondition gives: every input finite and every scale positive (so `1/s²` is a real; with `s = 0` it is `+∞`, the sums
  are infinite, and the two arrangements take opposite infinities).

  The three frames are the generated ones (the reference's from its generated run); the ideal pass rewrote nothing, so the
  idealization conjunct is trivial; the value conjunct sets the kernel's run (Proof/KernelScores.lean: the final array is the
  grouped form) beside the reference's (Proof/RefScores.lean: its result is the expanded form) and joins them by the law
  under the decoded precondition (Proof/InputDomain.lean).
-/
import proofs.«171289_j51642686767616_1_alg».proof.Defs
import proofs.«171289_j51642686767616_1_alg».proof.Proof.Gen.Kernel
import proofs.«171289_j51642686767616_1_alg».proof.Proof.Gen.Kernel.Skeleton
import proofs.«171289_j51642686767616_1_alg».proof.Proof.Gen.Kernel.Launch
import proofs.«171289_j51642686767616_1_alg».proof.Proof.Gen.Kernel.Points
import proofs.«171289_j51642686767616_1_alg».proof.Proof.Gen.Kernel.Frame
import proofs.«171289_j51642686767616_1_alg».proof.Proof.Gen.KernelIdeal
import proofs.«171289_j51642686767616_1_alg».proof.Proof.Gen.KernelIdeal.Skeleton
import proofs.«171289_j51642686767616_1_alg».proof.Proof.Gen.KernelIdeal.Launch
import proofs.«171289_j51642686767616_1_alg».proof.Proof.Gen.KernelIdeal.Points
import proofs.«171289_j51642686767616_1_alg».proof.Proof.Gen.KernelIdeal.Frame
import proofs.«171289_j51642686767616_1_alg».proof.Proof.Gen.ReferenceIdeal
import proofs.«171289_j51642686767616_1_alg».proof.Proof.Gen.Pre_finite_inputs
import proofs.«171289_j51642686767616_1_alg».proof.Proof.Gen.KernelIdeal.Value
import proofs.«171289_j51642686767616_1_alg».proof.Proof.Gen.ReferenceIdeal.Run
import proofs.«171289_j51642686767616_1_alg».proof.Proof.Gen.ReferenceIdeal.Read
import proofs.«171289_j51642686767616_1_alg».proof.Proof.GaussSpec
import proofs.«171289_j51642686767616_1_alg».proof.Proof.InputDomain
import proofs.«171289_j51642686767616_1_alg».proof.Proof.RefScores
import proofs.«171289_j51642686767616_1_alg».proof.Proof.KernelScores
import Idealize.ShloMosaic.Adequacy
import Idealize.ShloMosaic.Init

noncomputable section

namespace Cert.Proof

open Idealize.ShloMosaic Idealize.SL.Sem Cert.GaussLogProb

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's array ends at the grouped form of its arguments and the reference's at the expanded form of the same
    arguments; under the precondition the arguments are real with positive scales, where the two forms agree. -/
theorem algebraic : Cert.algebraic_KernelIdeal_ReferenceIdeal := by
  intro m ρ m' ρ' hpre hagree
  refine ⟨fun c => grouped (Cert.KernelIdeal.Tables.xArr m c) (Cert.KernelIdeal.Tables.muArr m c) (Cert.KernelIdeal.Tables.sArr m c),
    Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v24_eq,
    Cert.ReferenceIdeal.RefValue.ref_eq_expanded]
  obtain ⟨hx, hmu, hs, hpos⟩ := Cert.GaussLogProb.Domain.domain_of_pre _ _ _ (hpre c)
  exact (grouped_eq_expanded_of_real hx hmu hs fun i => (hpos i).ne').symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
